-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x256x16 : Shape := ⟨3, ![64, 256, 16]⟩
abbrev S64x16 : Shape := ⟨2, ![64, 16]⟩
abbrev S64 : Shape := ⟨1, ![64]⟩
abbrev S64x64 : Shape := ⟨2, ![64, 64]⟩
abbrev S_ : Shape := ⟨0, ![]⟩

class Facts : Prop where
  bcast_S_S64x256x16 : S_.BroadcastsInDim S64x256x16 (![] : Fin 0 → Fin S64x256x16.rank)
  reducesTo_S64x256x16_S_d0_1_2 : S64x256x16.ReducesTo [0, 1, 2] S_
  h_S_ : 0 < S_.numel
  bcast_S_S64x16 : S_.BroadcastsInDim S64x16 (![] : Fin 0 → Fin S64x16.rank)
  reducesTo_S64x16_S_d0_1 : S64x16.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_

variable [Facts]

def fn_part1 {F : FTy → Type} [FloatOps F] (main_arg4 : FVec F S64 .f32) (main_arg5 : FVec F S64x64 .f32) (main_arg6 : FVec F S64 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg5
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg6
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  main_v33

def fn {F : FTy → Type} [FloatOps F] (main_arg0 : FVec F S64x256x16 .f32) (main_arg1 : FVec F S64x16 .f32) (main_arg2 : FVec F S64 .f32) (main_arg3 : FVec F S64x64 .f32) (main_arg4 : FVec F S64 .f32) (main_arg5 : FVec F S64x64 .f32) (main_arg6 : FVec F S64 .f32) : IVec S_ 1 :=
  let main_v0 : FVec F S64x256x16 .f32 := Host.absf main_arg0
  let main_cst : FVec F S_ .f32 := constant S_ .f32 0x7F800000#32
  let main_v1 : FVec F S64x256x16 .f32 := broadcastInDim S64x256x16 ![] bcast_S_S64x256x16 main_cst
  let main_v2 : IVec S64x256x16 1 := cmpf .olt main_v0 main_v1
  let main_c : IVec S_ 1 := constantI S_ 1 1#1
  let main_v3 : IVec S_ 1 := (fun x v => Host.reduce IntOp.andi x v reducesTo_S64x256x16_S_d0_1_2 h_S_) main_v2 main_c
  let main_v4 : FVec F S64x16 .f32 := Host.absf main_arg1
  let main_cst_0 : FVec F S_ .f32 := constant S_ .f32 0x7F800000#32
  let main_v5 : FVec F S64x16 .f32 := broadcastInDim S64x16 ![] bcast_S_S64x16 main_cst_0
  let main_v6 : IVec S64x16 1 := cmpf .olt main_v4 main_v5
  let main_c_1 : IVec S_ 1 := constantI S_ 1 1#1
  let main_v7 : IVec S_ 1 := (fun x v => Host.reduce IntOp.andi x v reducesTo_S64x16_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg3
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg4 main_arg5 main_arg6 main_v13 main_v16
-- ==== Kernel.lean ====
abbrev S64x256x16 : Shape := ⟨3, ![64, 256, 16]⟩
abbrev S64x16 : Shape := ⟨2, ![64, 16]⟩
abbrev S64 : Shape := ⟨1, ![64]⟩
abbrev S64x64 : Shape := ⟨2, ![64, 64]⟩
abbrev S1x64 : Shape := ⟨2, ![1, 64]⟩
abbrev S64x1x64 : Shape := ⟨3, ![64, 1, 64]⟩
abbrev S1x256x16 : Shape := ⟨3, ![1, 256, 16]⟩
abbrev S1x1x64 : Shape := ⟨3, ![1, 1, 64]⟩
abbrev S256x16 : Shape := ⟨2, ![256, 16]⟩
abbrev S16x64 : Shape := ⟨2, ![16, 64]⟩
abbrev S256x64 : Shape := ⟨2, ![256, 64]⟩
abbrev S128x64 : Shape := ⟨2, ![128, 64]⟩
abbrev S128x1x64 : Shape := ⟨3, ![128, 1, 64]⟩
abbrev S1x128x64 : Shape := ⟨3, ![1, 128, 64]⟩
abbrev S128x128x64 : Shape := ⟨3, ![128, 128, 64]⟩

abbrev nBuf : Space → Nat
  | .hbm => 12
  | .vmem => 10
  | .smem => 0
  | _ => 0

abbrev bufTy : (tb : Table) → Fin (tcTables nBuf tb) → BufTy
  | .hbm, ⟨0, _⟩ => ⟨S64x256x16, .f32⟩
  | .hbm, ⟨1, _⟩ => ⟨S64x16, .f32⟩
  | .hbm, ⟨2, _⟩ => ⟨S64, .f32⟩
  | .hbm, ⟨3, _⟩ => ⟨S64x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S1x64, .f32⟩
  | .hbm, ⟨8, _⟩ => ⟨S1x64, .f32⟩
  | .hbm, ⟨9, _⟩ => ⟨S1x64, .f32⟩
  | .hbm, ⟨10, _⟩ => ⟨S64x1x64, .f32⟩
  | .hbm, ⟨11, _⟩ => ⟨S64x64, .f32⟩
  | .local _ .vmem, ⟨0, _⟩ => ⟨S1x256x16, .f32⟩
  | .local _ .vmem, ⟨1, _⟩ => ⟨S1x256x16, .f32⟩
  | .local _ .vmem, ⟨2, _⟩ => ⟨S64x16, .f32⟩
  | .local _ .vmem, ⟨3, _⟩ => ⟨S1x64, .f32⟩
  | .local _ .vmem, ⟨4, _⟩ => ⟨S64x64, .f32⟩
  | .local _ .vmem, ⟨5, _⟩ => ⟨S1x64, .f32⟩
  | .local _ .vmem, ⟨6, _⟩ => ⟨S64x64, .f32⟩
  | .local _ .vmem, ⟨7, _⟩ => ⟨S1x64, .f32⟩
  | .local _ .vmem, ⟨8, _⟩ => ⟨S1x1x64, .f32⟩
  | .local _ .vmem, ⟨9, _⟩ => ⟨S1x1x64, .f32⟩
  | _, _ => ⟨S64x256x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1x1x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  shapeCasts_S64_S1x64 : S64.ShapeCasts S1x64
  inb_S1x256x16_S1x256x16_0_0_0 : ∀ a, (![0, 0, 0] : Fin 3 → Nat) a + S1x256x16.size a ≤ S1x256x16.size a
  h_S1x256x16 : 0 < S1x256x16.numel
  shapeCasts_S1x256x16_S256x16 : S1x256x16.ShapeCasts S256x16
  bitsLt_bf16_f32 : FTy.bits .bf16 < FTy.bits .f32
  inb_S64x16_S64x16_0_0 : ∀ a, (![0, 0] : Fin 2 → Nat) a + S64x16.size a ≤ S64x16.size a
  h_S64x16 : 0 < S64x16.numel
  transposes_S64x16_p1_0_S16x64 : S64x16.Transposes [1, 0] S16x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S256x64 : S1x64.Broadcasts S256x64
  inb_S64x64_S64x64_0_0 : ∀ a, (![0, 0] : Fin 2 → Nat) a + S64x64.size a ≤ S64x64.size a
  h_S64x64 : 0 < S64x64.numel
  transposes_S64x64_p1_0_S64x64 : S64x64.Transposes [1, 0] S64x64
  slices_S256x64_o0_0_S128x64 : S256x64.Slices ![0, 0] S128x64
  shapeCasts_S128x64_S128x1x64 : S128x64.ShapeCasts S128x1x64
  shapeCasts_S128x64_S1x128x64 : S128x64.ShapeCasts S1x128x64
  broadcasts_S128x1x64_S128x128x64 : S128x1x64.Broadcasts S128x128x64
  broadcasts_S1x128x64_S128x128x64 : S1x128x64.Broadcasts S128x128x64
  shapeCasts_S1x64_S1x1x64 : S1x64.ShapeCasts S1x1x64
  broadcasts_S1x1x64_S128x128x64 : S1x1x64.Broadcasts S128x128x64
  reduces_S128x128x64_S128x64 : S128x128x64.Reduces [0] S128x64
  reduces_S128x64_S64 : S128x64.Reduces [0] S64
  slices_S256x64_o128_0_S128x64 : S256x64.Slices ![128, 0] S128x64
  inb_S1x1x64_S1x1x64_0_0_0 : ∀ a, (![0, 0, 0] : Fin 3 → Nat) a + S1x1x64.size a ≤ S1x1x64.size a
  h_S1x1x64 : 0 < S1x1x64.numel
  shapeCasts_S1x1x64_S1x64 : S1x1x64.ShapeCasts S1x64
  shapeCasts_S64x1x64_S64x64 : S64x1x64.ShapeCasts S64x64
  dot_S256x16_S16x64_S256x64_1_0_0_1_n_n_wf : DotDims.WF S256x16 S16x64 S256x64 [1] [0] [0] [1] [] []
  dot_S256x64_S64x64_S256x64_1_0_0_1_n_n_wf : DotDims.WF S256x64 S64x64 S256x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x16.size a ≤ S64x256x16.size a
  hwx0_0 : ∀ i : grid0.Coords, EltTy.bits .f32 = 32 ∨ (Rect.block (s := S64x256x16) S1x256x16.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x16.size a ≤ S64x16.size a
  hwx0_1 : ∀ i : grid0.Coords, EltTy.bits .f32 = 32 ∨ (Rect.block (s := S64x16) S64x16.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x64.size a ≤ S64x64.size a
  hwx0_5 : ∀ i : grid0.Coords, EltTy.bits .f32 = 32 ∨ (Rect.block (s := S64x64) S64x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x64.size a ≤ S1x64.size a
  hwx0_6 : ∀ i : grid0.Coords, EltTy.bits .f32 = 32 ∨ (Rect.block (s := S1x64) S1x64.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x1x64.size a ≤ S64x1x64.size a
  hwx0_7 : ∀ i : grid0.Coords, EltTy.bits .f32 = 32 ∨ (Rect.block (s := S64x1x64) S1x1x64.size (cc0_transform_7 i) (hinb0_7 i)).WholeWords (EltTy.packing .f32)

variable [Facts₀]

def dot_S256x16_S16x64_S256x64_1_0_0_1_n_n : DotDims S256x16 S16x64 S256x64 where
  lhsContracting := [1]
  rhsContracting := [0]
  lhsNonContracting := [0]
  rhsNonContracting := [1]
  lhsBatch := []
  rhsBatch := []
  wf := dot_S256x16_S16x64_S256x64_1_0_0_1_n_n_wf
def dot_S256x64_S64x64_S256x64_1_0_0_1_n_n : DotDims S256x64 S64x64 S256x64 where
  lhsContracting := [1]
  rhsContracting := [0]
  lhsNonContracting := [0]
  rhsNonContracting := [1]
  lhsBatch := []
  rhsBatch := []
  wf := dot_S256x64_S64x64_S256x64_1_0_0_1_n_n_wf

abbrev win0_0 : Pipeline.Window sig grid0 :=
  Pipeline.Window.ofSpec (Memref.whole main_arg0) S1x256x16.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S64x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S64x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v2) S1x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v3) S1x1x64.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S64x256x16 : Shape := ⟨3, ![64, 256, 16]⟩
abbrev S64x16 : Shape := ⟨2, ![64, 16]⟩
abbrev S64 : Shape := ⟨1, ![64]⟩
abbrev S64x64 : Shape := ⟨2, ![64, 64]⟩
abbrev S64x256x64 : Shape := ⟨3, ![64, 256, 64]⟩
abbrev S1x1x64 : Shape := ⟨3, ![1, 1, 64]⟩
abbrev S_ : Shape := ⟨0, ![]⟩
abbrev S64x256x1x64 : Shape := ⟨4, ![64, 256, 1, 64]⟩
abbrev S64x1x256x64 : Shape := ⟨4, ![64, 1, 256, 64]⟩
abbrev S64x256x256x64 : Shape := ⟨4, ![64, 256, 256, 64]⟩
abbrev S1x1x1x64 : Shape := ⟨4, ![1, 1, 1, 64]⟩

abbrev nBuf : Space → Nat
  | .hbm => 36
  | .vmem => 0
  | .smem => 0
  | _ => 0

abbrev bufTy : (tb : Table) → Fin (tcTables nBuf tb) → BufTy
  | .hbm, ⟨0, _⟩ => ⟨S64x256x16, .f32⟩
  | .hbm, ⟨1, _⟩ => ⟨S64x16, .f32⟩
  | .hbm, ⟨2, _⟩ => ⟨S64, .f32⟩
  | .hbm, ⟨3, _⟩ => ⟨S64x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S64x256x64, .f32⟩
  | .hbm, ⟨8, _⟩ => ⟨S1x1x64, .f32⟩
  | .hbm, ⟨9, _⟩ => ⟨S64x256x64, .f32⟩
  | .hbm, ⟨10, _⟩ => ⟨S64x256x64, .f32⟩
  | .hbm, ⟨11, _⟩ => ⟨S_, .f32⟩
  | .hbm, ⟨12, _⟩ => ⟨S64x256x64, .f32⟩
  | .hbm, ⟨13, _⟩ => ⟨S64x256x64, .f32⟩
  | .hbm, ⟨14, _⟩ => ⟨S64x256x64, .f32⟩
  | .hbm, ⟨15, _⟩ => ⟨S1x1x64, .f32⟩
  | .hbm, ⟨16, _⟩ => ⟨S64x256x64, .f32⟩
  | .hbm, ⟨17, _⟩ => ⟨S64x256x64, .f32⟩
  | .hbm, ⟨18, _⟩ => ⟨S_, .f32⟩
  | .hbm, ⟨19, _⟩ => ⟨S64x256x64, .f32⟩
  | .hbm, ⟨20, _⟩ => ⟨S64x256x64, .f32⟩
  | .hbm, ⟨21, _⟩ => ⟨S64x256x64, .f32⟩
  | .hbm, ⟨22, _⟩ => ⟨S64x256x1x64, .f32⟩
  | .hbm, ⟨23, _⟩ => ⟨S64x1x256x64, .f32⟩
  | .hbm, ⟨24, _⟩ => ⟨S64x256x256x64, .f32⟩
  | .hbm, ⟨25, _⟩ => ⟨S64x256x256x64, .f32⟩
  | .hbm, ⟨26, _⟩ => ⟨S64x256x256x64, .f32⟩
  | .hbm, ⟨27, _⟩ => ⟨S1x1x1x64, .f32⟩
  | .hbm, ⟨28, _⟩ => ⟨S64x256x256x64, .f32⟩
  | .hbm, ⟨29, _⟩ => ⟨S64x256x256x64, .f32⟩
  | .hbm, ⟨30, _⟩ => ⟨S64x256x256x64, .f32⟩
  | .hbm, ⟨31, _⟩ => ⟨S_, .f32⟩
  | .hbm, ⟨32, _⟩ => ⟨S64x64, .f32⟩
  | .hbm, ⟨33, _⟩ => ⟨S_, .f32⟩
  | .hbm, ⟨34, _⟩ => ⟨S64x64, .f32⟩
  | .hbm, ⟨35, _⟩ => ⟨S64x64, .f32⟩
  | _, _ => ⟨S64x256x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_call0_cst : Ref sig .tc := ⟨.hbm, 11, rfl⟩
abbrev main_call0_v0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_call1_cst : Ref sig .tc := ⟨.hbm, 18, rfl⟩
abbrev main_call1_v0 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst : Ref sig .tc := ⟨.hbm, 31, rfl⟩
abbrev main_v20 : Ref sig .tc := ⟨.hbm, 32, rfl⟩
abbrev main_cst_0 : Ref sig .tc := ⟨.hbm, 33, rfl⟩
abbrev main_v21 : Ref sig .tc := ⟨.hbm, 34, rfl⟩
abbrev main_v22 : Ref sig .tc := ⟨.hbm, 35, rfl⟩

abbrev nD : Nat := 1
abbrev τ : Topo := Topo.v7x

variable {F : FTy → Type} [FloatOps F]

class Facts₀ : Prop where
  bcast_S64_S1x1x64_2 : S64.BroadcastsInDim S1x1x64 (![2] : Fin 1 → Fin S1x1x64.rank)
  bcast_S1x1x64_S64x256x64_0_1_2 : S1x1x64.BroadcastsInDim S64x256x64 (![0, 1, 2] : Fin 3 → Fin S64x256x64.rank)
  bcast_S_S64x256x64 : S_.BroadcastsInDim S64x256x64 (![] : Fin 0 → Fin S64x256x64.rank)
  bcast_S64x256x64_S64x256x1x64_0_1_3 : S64x256x64.BroadcastsInDim S64x256x1x64 (![0, 1, 3] : Fin 3 → Fin S64x256x1x64.rank)
  bcast_S64x256x64_S64x1x256x64_0_2_3 : S64x256x64.BroadcastsInDim S64x1x256x64 (![0, 2, 3] : Fin 3 → Fin S64x1x256x64.rank)
  bcast_S64x256x1x64_S64x256x256x64_0_1_2_3 : S64x256x1x64.BroadcastsInDim S64x256x256x64 (![0, 1, 2, 3] : Fin 4 → Fin S64x256x256x64.rank)
  bcast_S64x1x256x64_S64x256x256x64_0_1_2_3 : S64x1x256x64.BroadcastsInDim S64x256x256x64 (![0, 1, 2, 3] : Fin 4 → Fin S64x256x256x64.rank)
  bcast_S64_S1x1x1x64_3 : S64.BroadcastsInDim S1x1x1x64 (![3] : Fin 1 → Fin S1x1x1x64.rank)
  bcast_S1x1x1x64_S64x256x256x64_0_1_2_3 : S1x1x1x64.BroadcastsInDim S64x256x256x64 (![0, 1, 2, 3] : Fin 4 → Fin S64x256x256x64.rank)
  reducesTo_S64x256x256x64_S64x64_d1_2 : S64x256x256x64.ReducesTo [1, 2] S64x64
  h_S_ : 0 < S_.numel
  bcast_S_S64x64 : S_.BroadcastsInDim S64x64 (![] : Fin 0 → Fin S64x64.rank)
  dot_S64x256x16_S64x16_S64x256x64_2_1_01_0_n_n_wf : DotDims.WF S64x256x16 S64x16 S64x256x64 [2] [1] [0, 1] [0] [] []
  dot_S64x256x64_S64x64_S64x256x64_2_1_01_0_n_n_wf : DotDims.WF S64x256x64 S64x64 S64x256x64 [2] [1] [0, 1] [0] [] []

variable [Facts₀]

def dot_S64x256x16_S64x16_S64x256x64_2_1_01_0_n_n : DotDims S64x256x16 S64x16 S64x256x64 where
  lhsContracting := [2]
  rhsContracting := [1]
  lhsNonContracting := [0, 1]
  rhsNonContracting := [0]
  lhsBatch := []
  rhsBatch := []
  wf := dot_S64x256x16_S64x16_S64x256x64_2_1_01_0_n_n_wf
def dot_S64x256x64_S64x64_S64x256x64_2_1_01_0_n_n : DotDims S64x256x64 S64x64 S64x256x64 where
  lhsContracting := [2]
  rhsContracting := [1]
  lhsNonContracting := [0, 1]
  rhsNonContracting := [0]
  lhsBatch := []
  rhsBatch := []
  wf := dot_S64x256x64_S64x64_S64x256x64_2_1_01_0_n_n_wf

class Facts : Prop extends Facts₀ where

variable [Facts]
-- ==== Proof.Spec.lean ====
/-
  The function both programs compute, for one batch element, over plain index functions.

  A node `n` (of 256) carries 16 input features. Two linear layers with bias, each followed by the
  maximum with zero, give 64 hidden features; a third linear map without bias gives `y n h`. The
  result at output feature `h` is the mean over all ordered pairs `(n1, n2)` of
  `tanh (y n1 h + y n2 h + b h)`: the sum over the 256 · 256 pairs times 1/65536.

  Also here: the sum over all pairs split into the four 128 × 128 tiles of the pair square (only
  commutativity and associativity of the sum: no finiteness is needed), and the two float constants
  the programs spell, 2^-16 and 65536, as the reals they denote.
-/
import Idealize.ShloMosaic.PureOps.Ideal
import Idealize.ShloMosaic.PureOps.Ideal.Laws
import Idealize.ShloMosaic.Lib.ValueIdx
import Idealize.ShloMosaic.PureOps.Reduce

noncomputable section

namespace Cert.PairPool

open Idealize.ShloMosaic Idealize.ShloMosaic.ValueIdx

/-- A linear layer with bias followed by the maximum with zero, at node `n` and output feature `h`:
    `max (Σ k, X n k · W h k + b h) 0` (the weight matrix is indexed output feature first). -/
def layer {K : Nat} (X : Fin 256 → Fin K → EReal) (W : Fin 64 → Fin K → EReal) (b : Fin 64 → EReal)
    (n : Fin 256) (h : Fin 64) : EReal :=
  max ((∑ k : Fin K, X n k * W h k) + b h) 0

/-- The last linear map, without bias: `Σ k, X n k · W h k`. -/
def proj (X : Fin 256 → Fin 64 → EReal) (W : Fin 64 → Fin 64 → EReal) (n : Fin 256) (h : Fin 64) : EReal :=
  ∑ k : Fin 64, X n k * W h k

/-- The node features `y n h` after the two layers and the last linear map. -/
def nodeY (J : Fin 256 → Fin 16 → EReal) (W : Fin 64 → Fin 16 → EReal) (b : Fin 64 → EReal)
    (W1 : Fin 64 → Fin 64 → EReal) (b1 : Fin 64 → EReal) (We : Fin 64 → Fin 64 → EReal) :
    Fin 256 → Fin 64 → EReal :=
  proj (layer (layer J W b) W1 b1) We

/-- The sum over all ordered pairs of nodes of `tanh (y n1 h + y n2 h + be h)`. -/
def pairSum (y : Fin 256 → Fin 64 → EReal) (be : Fin 64 → EReal) (h : Fin 64) : EReal :=
  ∑ n1 : Fin 256, ∑ n2 : Fin 256, Ideal.tanh (y n1 h + y n2 h + be h)

/-- The mean over all ordered pairs: the pair sum times 1/65536. -/
def meanPool (J : Fin 256 → Fin 16 → EReal) (W : Fin 64 → Fin 16 → EReal) (b : Fin 64 → EReal)
    (W1 : Fin 64 → Fin 64 → EReal) (b1 : Fin 64 → EReal) (We : Fin 64 → Fin 64 → EReal)
    (be : Fin 64 → EReal) (h : Fin 64) : EReal :=
  pairSum (nodeY J W b W1 b1 We) be h * ((1 / 65536 : ℝ) : EReal)

/-- The mean pool of equal data is equal. -/
theorem meanPool_congr {J J' : Fin 256 → Fin 16 → EReal} {W W' : Fin 64 → Fin 16 → EReal} {b b' : Fin 64 → EReal}
    {W1 W1' : Fin 64 → Fin 64 → EReal} {b1 b1' : Fin 64 → EReal} {We We' : Fin 64 → Fin 64 → EReal}
    {be be' : Fin 64 → EReal} {h h' : Fin 64} (hJ : J = J') (hW : W = W') (hb : b = b') (hW1 : W1 = W1')
    (hb1 : b1 = b1') (hWe : We = We') (hbe : be = be') (hh : h = h') :
    meanPool J W b W1 b1 We be h = meanPool J' W' b' W1' b1' We' be' h' := by
  rw [hJ, hW, hb, hW1, hb1, hWe, hbe, hh]

/-- The whole result [64, 64] from the seven argument arrays: batch element `b` reads rows `(b, ·, ·)`
    of the node features; the weights and biases are shared by all batch elements. -/
def G (x0 : FVec Ideal ⟨3, ![64, 256, 16]⟩ .f32) (x1 : FVec Ideal ⟨2, ![64, 16]⟩ .f32) (x2 : FVec Ideal ⟨1, ![64]⟩ .f32)
    (x3 : FVec Ideal ⟨2, ![64, 64]⟩ .f32) (x4 : FVec Ideal ⟨1, ![64]⟩ .f32) (x5 : FVec Ideal ⟨2, ![64, 64]⟩ .f32)
    (x6 : FVec Ideal ⟨1, ![64]⟩ .f32) : FVec Ideal ⟨2, ![64, 64]⟩ .f32 := fun i =>
  meanPool (fun n k => x0 (ix3 (i 0) n k)) (fun h k => x1 (ix2 h k)) (fun h => x2 (ix1 h)) (fun h k => x3 (ix2 h k))
    (fun h => x4 (ix1 h)) (fun h k => x5 (ix2 h k)) (fun h => x6 (ix1 h)) (i 1)

/-! ## A sum over the two middle axes of a rank-4 array -/

/-- The entries of a [64, 256, 256, 64] array that dropping the two middle axes sends to `(b, h)` are the
    entries `(b, n1, n2, h)`: the sum over them is the double sum over `n1` and `n2`. -/
theorem sum_drop_mid {M : Type*} [AddCommMonoid M]
    (hr : (⟨4, ![64, 256, 256, 64]⟩ : Shape).ReducesTo [1, 2] ⟨2, ![64, 64]⟩)
    (x : (⟨4, ![64, 256, 256, 64]⟩ : Shape).Idx → M) (b h : Fin 64) :
    ∑ i ∈ Finset.univ.filter (fun i => hr.drop i = ix2 b h), x i
      = ∑ n1 : Fin 256, ∑ n2 : Fin 256, x (ix4 b n1 n2 h) := by
  refine Eq.trans ?_ (Finset.sum_product' Finset.univ Finset.univ (fun n1 n2 => x (ix4 b n1 n2 h)))
  refine Finset.sum_bij' (fun i _ => (i 1, i 2)) (fun p _ => ix4 b p.1 p.2 h) ?_ ?_ ?_ ?_ ?_
  · intro i _; exact Finset.mem_product.2 ⟨Finset.mem_univ _, Finset.mem_univ _⟩
  · intro p _
    rw [Finset.mem_filter]
    refine ⟨Finset.mem_univ _, funext fun d => Fin.ext ?_⟩
    match d with
    | ⟨0, _⟩ => exact hr.drop_apply_val_of_eq _ 0 0
    | ⟨1, _⟩ => exact hr.drop_apply_val_of_eq _ 1 3
  · intro i hi
    rw [Finset.mem_filter] at hi
    have h0 : (hr.drop i 0).val = b.val := congrArg Fin.val (congrFun hi.2 0)
    have h1 : (hr.drop i 1).val = h.val := congrArg Fin.val (congrFun hi.2 1)
    rw [hr.drop_apply_val_of_eq i 0 0] at h0
    rw [hr.drop_apply_val_of_eq i 1 3] at h1
    funext d; apply Fin.ext
    match d with
    | ⟨0, _⟩ => exact h0.symm
    | ⟨1, _⟩ => rfl
    | ⟨2, _⟩ => rfl
    | ⟨3, _⟩ => exact h1.symm
  · intro p _; rfl
  · intro i hi
    rw [Finset.mem_filter] at hi
    have h0 : (hr.drop i 0).val = b.val := congrArg Fin.val (congrFun hi.2 0)
    have h1 : (hr.drop i 1).val = h.val := congrArg Fin.val (congrFun hi.2 1)
    rw [hr.drop_apply_val_of_eq i 0 0] at h0
    rw [hr.drop_apply_val_of_eq i 1 3] at h1
    refine congrArg x (funext fun d => Fin.ext ?_)
    match d with
    | ⟨0, _⟩ => exact h0
    | ⟨1, _⟩ => rfl
    | ⟨2, _⟩ => rfl
    | ⟨3, _⟩ => exact h1

/-! ## The pair square in four tiles -/

/-- Node `a` of the lower half, `0 ≤ a < 128`. -/
def lo (a : Fin 128) : Fin 256 := ⟨a.val, by have := a.isLt; omega⟩
/-- Node `128 + a` of the upper half. -/
def hi (a : Fin 128) : Fin 256 := ⟨128 + a.val, by have := a.isLt; omega⟩

/-- A sum over 256 nodes is the sum over the lower half plus the sum over the upper half. -/
theorem sum_halves {M : Type*} [AddCommMonoid M] (g : Fin 256 → M) :
    ∑ n : Fin 256, g n = ∑ a : Fin 128, g (lo a) + ∑ a : Fin 128, g (hi a) :=
  Fin.sum_univ_add (a := 128) (b := 128) (g : Fin (128 + 128) → M)

/-- The sum over all ordered pairs, tile by tile: (lower, lower), (lower, upper), (upper, lower),
    (upper, upper), each tile summed over its first node inside its second, the four added in that
    order onto zero. -/
theorem sum_pairs_tiles {M : Type*} [AddCommMonoid M] (f : Fin 256 → Fin 256 → M) :
    ∑ n1 : Fin 256, ∑ n2 : Fin 256, f n1 n2
      = (((0 + ∑ c : Fin 128, ∑ a : Fin 128, f (lo a) (lo c))
          + ∑ c : Fin 128, ∑ a : Fin 128, f (lo a) (hi c))
          + ∑ c : Fin 128, ∑ a : Fin 128, f (hi a) (lo c))
          + ∑ c : Fin 128, ∑ a : Fin 128, f (hi a) (hi c) := by
  rw [sum_halves]
  simp only [sum_halves (fun n2 => f _ n2), Finset.sum_add_distrib]
  rw [Finset.sum_comm (f := fun a c => f (lo a) (lo c)), Finset.sum_comm (f := fun a c => f (lo a) (hi c)),
    Finset.sum_comm (f := fun a c => f (hi a) (lo c)), Finset.sum_comm (f := fun a c => f (hi a) (hi c)),
    zero_add, add_assoc, add_assoc, add_assoc]

/-! ## The constants -/

/-- The kernel's factor, the float 2^-16, denotes the real 1/65536. -/
theorem ofBits_inv65536 : Ideal.ofBits .f32 0x37800000#32 = ((1 / 65536 : ℝ) : EReal) := by
  simp [Ideal.ofBits, Ideal.ieee, -EReal.coe_mul]; norm_num

/-- The reference's divisor, the float 65536, denotes the real 65536. -/
theorem ofBits_65536 : Ideal.ofBits .f32 0x47800000#32 = ((65536 : ℝ) : EReal) := by
  simp [Ideal.ofBits, Ideal.ieee, -EReal.coe_mul]; norm_num

/-- Dividing by 65536 is multiplying by 1/65536, on every extended real. -/
theorem div_65536 (s : EReal) : Ideal.div s ((65536 : ℝ) : EReal) = s * ((1 / 65536 : ℝ) : EReal) :=
  Ideal.div_coe (by norm_num : (65536 : ℝ) ≠ 0) s

end Cert.PairPool

end
-- ==== Proof.RefValue.lean ====
/-
  The reference's result is the mean-pooled pair function `Cert.PairPool.G` of its arguments.

  Read one operation at a time: the first contraction, bias and maximum with zero give the first
  layer at `(b, n, h)`; the second likewise; the third contraction gives `y b n h`; the two
  broadcasts put `y b n1 h` and `y b n2 h` at `(b, n1, n2, h)`, the bias `be h` is added and
  `tanh` applied; the sum over the two middle axes at `(b, h)` is zero plus the double sum over
  `n1` and `n2`; and the quotient by 65536 is the product with 1/65536.
-/
import proofs.«158227_j61486751809982_1_alg».proof.Proof.Gen.ReferenceIdeal.Read
import proofs.«158227_j61486751809982_1_alg».proof.Proof.Spec
import Idealize.ShloMosaic.Lib.IdealHost

noncomputable section

namespace Cert.ReferenceIdeal.RefValue

open Cert.ReferenceIdeal Cert.ReferenceIdeal.Gen Cert.ReferenceIdeal.Read Cert.PairPool
open Idealize.ShloMosaic Idealize.ShloMosaic.ValueIdx

/-! ## Where each operation reads its operands -/

theorem lidx0 (b : Fin 64) (n : Fin 256) (h : Fin 64) (k : Fin 16) : lidx_main_v0 (ix3 b n h) k = ix3 b n k :=
  funext fun a => by match a with | ⟨0, _⟩ => rfl | ⟨1, _⟩ => rfl | ⟨2, _⟩ => rfl
theorem ridx0 (b : Fin 64) (n : Fin 256) (h : Fin 64) (k : Fin 16) : ridx_main_v0 (ix3 b n h) k = ix2 h k :=
  funext fun a => by match a with | ⟨0, _⟩ => rfl | ⟨1, _⟩ => rfl
theorem bidx0 (b : Fin 64) (n : Fin 256) (h : Fin 64) : idx_main_v1 (idx_main_v2 (ix3 b n h)) = ix1 h :=
  funext fun a => by match a with | ⟨0, _⟩ => rfl
theorem lidx5 (b : Fin 64) (n : Fin 256) (h : Fin 64) (k : Fin 64) : lidx_main_v5 (ix3 b n h) k = ix3 b n k :=
  funext fun a => by match a with | ⟨0, _⟩ => rfl | ⟨1, _⟩ => rfl | ⟨2, _⟩ => rfl
theorem ridx5 (b : Fin 64) (n : Fin 256) (h : Fin 64) (k : Fin 64) : ridx_main_v5 (ix3 b n h) k = ix2 h k :=
  funext fun a => by match a with | ⟨0, _⟩ => rfl | ⟨1, _⟩ => rfl
theorem bidx5 (b : Fin 64) (n : Fin 256) (h : Fin 64) : idx_main_v6 (idx_main_v7 (ix3 b n h)) = ix1 h :=
  funext fun a => by match a with | ⟨0, _⟩ => rfl
theorem lidx10 (b : Fin 64) (n : Fin 256) (h : Fin 64) (k : Fin 64) : lidx_main_v10 (ix3 b n h) k = ix3 b n k :=
  funext fun a => by match a with | ⟨0, _⟩ => rfl | ⟨1, _⟩ => rfl | ⟨2, _⟩ => rfl
theorem ridx10 (b : Fin 64) (n : Fin 256) (h : Fin 64) (k : Fin 64) : ridx_main_v10 (ix3 b n h) k = ix2 h k :=
  funext fun a => by match a with | ⟨0, _⟩ => rfl | ⟨1, _⟩ => rfl
theorem first_idx (b : Fin 64) (n1 n2 : Fin 256) (h : Fin 64) : idx_main_v11 (idx_main_v13 (ix4 b n1 n2 h)) = ix3 b n1 h :=
  funext fun a => by match a with | ⟨0, _⟩ => rfl | ⟨1, _⟩ => rfl | ⟨2, _⟩ => rfl
theorem second_idx (b : Fin 64) (n1 n2 : Fin 256) (h : Fin 64) : idx_main_v12 (idx_main_v14 (ix4 b n1 n2 h)) = ix3 b n2 h :=
  funext fun a => by match a with | ⟨0, _⟩ => rfl | ⟨1, _⟩ => rfl | ⟨2, _⟩ => rfl
theorem bias_idx (b : Fin 64) (n1 n2 : Fin 256) (h : Fin 64) : idx_main_v16 (idx_main_v17 (ix4 b n1 n2 h)) = ix1 h :=
  funext fun a => by match a with | ⟨0, _⟩ => rfl

/-! ## The stages -/

variable (x0 : FVec Ideal S64x256x16 .f32) (x1 : FVec Ideal S64x16 .f32) (x2 : FVec Ideal S64 .f32)
  (x3 : FVec Ideal S64x64 .f32) (x4 : FVec Ideal S64 .f32) (x5 : FVec Ideal S64x64 .f32) (x6 : FVec Ideal S64 .f32)

/-- Batch element `b`'s node features. -/
abbrev J (b : Fin 64) : Fin 256 → Fin 16 → EReal := fun n k => x0 (ix3 b n k)
/-- A weight matrix as a function of output feature and input feature. -/
abbrev mat {K : Nat} (w : FVec Ideal ⟨2, ![64, K]⟩ .f32) : Fin 64 → Fin K → EReal := fun h k => w (ix2 h k)
/-- A bias vector as a function of the output feature. -/
abbrev vec (v : FVec Ideal ⟨1, ![64]⟩ .f32) : Fin 64 → EReal := fun h => v (ix1 h)

/-- The first layer at `(b, n, h)`. -/
theorem layer1 (b : Fin 64) (n : Fin 256) (h : Fin 64) :
    val_main_v4 (F := Ideal) x0 x1 x2 (ix3 b n h) = layer (J x0 b) (mat x1) (vec x2) n h := by
  rw [val_main_v4_apply, val_main_v3_apply, val_main_v0_apply, val_main_v2_apply, val_main_v1_apply,
    val_main_call0_v0_apply, val_main_call0_cst_apply]
  simp only [Ideal.maximumf_def, Ideal.addf_def, Ideal.ofBits_def, Ideal.ofBits_zero_f32, lidx0, ridx0, bidx0]
  rfl

/-- The second layer at `(b, n, h)`. -/
theorem layer2 (b : Fin 64) (n : Fin 256) (h : Fin 64) :
    val_main_v9 (F := Ideal) x0 x1 x2 x3 x4 (ix3 b n h)
      = layer (layer (J x0 b) (mat x1) (vec x2)) (mat x3) (vec x4) n h := by
  rw [val_main_v9_apply, val_main_v8_apply, val_main_v5_apply, val_main_v7_apply, val_main_v6_apply,
    val_main_call1_v0_apply, val_main_call1_cst_apply]
  simp only [Ideal.maximumf_def, Ideal.addf_def, Ideal.ofBits_def, Ideal.ofBits_zero_f32, lidx5, ridx5, bidx5, layer1]
  rfl

/-- The node features `y b n h`. -/
theorem nodeY_eq (b : Fin 64) (n : Fin 256) (h : Fin 64) :
    val_main_v10 (F := Ideal) x0 x1 x2 x3 x4 x5 (ix3 b n h)
      = nodeY (J x0 b) (mat x1) (vec x2) (mat x3) (vec x4) (mat x5) n h := by
  rw [val_main_v10_apply]
  simp only [lidx10, ridx10, layer2]
  rfl

/-- The array summed over its two middle axes, at `(b, n1, n2, h)`. -/
theorem tanh_pair (b : Fin 64) (n1 n2 : Fin 256) (h : Fin 64) :
    val_main_v19 (F := Ideal) x0 x1 x2 x3 x4 x5 x6 (ix4 b n1 n2 h)
      = Ideal.tanh (nodeY (J x0 b) (mat x1) (vec x2) (mat x3) (vec x4) (mat x5) n1 h
          + nodeY (J x0 b) (mat x1) (vec x2) (mat x3) (vec x4) (mat x5) n2 h + vec x6 h) := by
  rw [val_main_v19_apply, val_main_v18_apply, val_main_v15_apply, val_main_v13_apply, val_main_v11_apply,
    val_main_v14_apply, val_main_v12_apply, val_main_v17_apply, val_main_v16_apply]
  simp only [Ideal.hostUnary_tanh_def, Ideal.addf_def, first_idx, second_idx, bias_idx, nodeY_eq]

/-- THE REFERENCE'S RESULT is `G` of the arguments. -/
theorem result_eq : val_main_v22 (F := Ideal) x0 x1 x2 x3 x4 x5 x6 = G x0 x1 x2 x3 x4 x5 x6 := by
  funext i
  obtain ⟨b, h, rfl⟩ : ∃ (b : Fin 64) (h : Fin 64), i = ix2 b h := ⟨i 0, i 1, eq_ix2 i⟩
  rw [val_main_v22_apply, val_main_v21_apply, val_main_cst_0_apply]
  simp only [Ideal.hostDivf_def, Ideal.ofBits_def, ofBits_65536, div_65536]
  unfold G meanPool pairSum
  refine congrArg (· * ((1 / 65536 : ℝ) : EReal)) ?_
  unfold val_main_v20
  rw [hostReduceAdd_apply]
  unfold Ideal.hostReduceAdd
  rw [sum_drop_mid]
  show Ideal.ofBits .f32 0x00000000#32 + _ = _
  rw [Ideal.ofBits_zero_f32, zero_add]
  refine Finset.sum_congr rfl fun n1 _ => Finset.sum_congr rfl fun n2 _ => ?_
  exact tanh_pair x0 x1 x2 x3 x4 x5 x6 b n1 n2 h

end Cert.ReferenceIdeal.RefValue

end
-- ==== Proof.KernelOps.lean ====
/-
  The kernel body's operations that are not pointwise, read at an index, at the ideal values.

  * a matrix product into the zero accumulator, contracting the left operand's columns with the
    right operand's rows: entry `(n, h)` is `Σ k, L (n, k) · R (k, h)`;
  * one linear layer as the body spells it — the weights transposed, the product, the bias row
    broadcast over the nodes, the maximum with zero — is `Cert.PairPool.layer`;
  * one 128 × 128 tile of the pair square: `tanh (yi (a, h) + yj (c, h) + be (0, h))` summed over
    `a`, then over `c`.
-/
import proofs.«158227_j61486751809982_1_alg».proof.Proof.Gen.KernelIdeal
import proofs.«158227_j61486751809982_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Body

open Cert.KernelIdeal Cert.KernelIdeal.Gen Cert.PairPool
open Idealize.ShloMosaic Idealize.ShloMosaic.ValueIdx

/-! ## The two matrix products -/

theorem lhs16_0 (i : S256x64.Idx) (q : dot_S256x16_S16x64_S256x64_1_0_0_1_n_n.contr.Idx) :
    (dot_S256x16_S16x64_S256x64_1_0_0_1_n_n.lhsIdx i q 0).val = (i 0).val := by
  unfold DotDims.lhsIdx
  rw [dif_neg (show ¬(0 : Fin S256x16.rank) ∈ dot_S256x16_S16x64_S256x64_1_0_0_1_n_n.lhsBatch by decide), dif_pos (show (0 : Fin S256x16.rank) ∈ dot_S256x16_S16x64_S256x64_1_0_0_1_n_n.lhsNonContracting by decide)]
  rfl
theorem lhs16_1 (i : S256x64.Idx) (q : dot_S256x16_S16x64_S256x64_1_0_0_1_n_n.contr.Idx) :
    (dot_S256x16_S16x64_S256x64_1_0_0_1_n_n.lhsIdx i q 1).val = (q ⟨0, by decide⟩).val :=
  dot_S256x16_S16x64_S256x64_1_0_0_1_n_n.lhsIdx_val_of_single rfl i q
theorem rhs16_0 (i : S256x64.Idx) (q : dot_S256x16_S16x64_S256x64_1_0_0_1_n_n.contr.Idx) :
    (dot_S256x16_S16x64_S256x64_1_0_0_1_n_n.rhsIdx i q 0).val = (q ⟨0, by decide⟩).val :=
  dot_S256x16_S16x64_S256x64_1_0_0_1_n_n.rhsIdx_val_of_single rfl i q
theorem rhs16_1 (i : S256x64.Idx) (q : dot_S256x16_S16x64_S256x64_1_0_0_1_n_n.contr.Idx) :
    (dot_S256x16_S16x64_S256x64_1_0_0_1_n_n.rhsIdx i q 1).val = (i 1).val := by
  unfold DotDims.rhsIdx
  rw [dif_neg (show ¬(1 : Fin S16x64.rank) ∈ dot_S256x16_S16x64_S256x64_1_0_0_1_n_n.rhsBatch by decide), dif_pos (show (1 : Fin S16x64.rank) ∈ dot_S256x16_S16x64_S256x64_1_0_0_1_n_n.rhsNonContracting by decide)]
  rfl

/-- The [256, 16] · [16, 64] product into zero at `(n, h)`. -/
theorem matmul16_apply (L : FVec Ideal S256x16 .bf16) (R : FVec Ideal S16x64 .bf16) (n : Fin 256) (h : Fin 64) :
    matmul dot_S256x16_S16x64_S256x64_1_0_0_1_n_n none L R (constant (F := Ideal) S256x64 .f32 0x00000000#32) (ix2 n h)
      = ∑ k : Fin 16, L (ix2 n k) * R (ix2 k h) := by
  simp only [matmul]
  rw [Ideal.matmul_constant_zero_apply, ← Equiv.sum_comp (ValueIdx.contrEquiv1 dot_S256x16_S16x64_S256x64_1_0_0_1_n_n 16 rfl rfl).symm]
  refine Finset.sum_congr rfl fun k _ => ?_
  have hk := ValueIdx.contrEquiv1_symm_val dot_S256x16_S16x64_S256x64_1_0_0_1_n_n 16 rfl rfl k
  have el : dot_S256x16_S16x64_S256x64_1_0_0_1_n_n.lhsIdx (ix2 n h) ((ValueIdx.contrEquiv1 dot_S256x16_S16x64_S256x64_1_0_0_1_n_n 16 rfl rfl).symm k) = ix2 n k := funext fun a => Fin.ext (by
    match a with
    | ⟨0, _⟩ => exact lhs16_0 _ _
    | ⟨1, _⟩ => exact (lhs16_1 _ _).trans hk)
  have er : dot_S256x16_S16x64_S256x64_1_0_0_1_n_n.rhsIdx (ix2 n h) ((ValueIdx.contrEquiv1 dot_S256x16_S16x64_S256x64_1_0_0_1_n_n 16 rfl rfl).symm k) = ix2 k h := funext fun a => Fin.ext (by
    match a with
    | ⟨0, _⟩ => exact (rhs16_0 _ _).trans hk
    | ⟨1, _⟩ => exact rhs16_1 _ _)
  rw [el, er]

theorem lhs64_0 (i : S256x64.Idx) (q : dot_S256x64_S64x64_S256x64_1_0_0_1_n_n.contr.Idx) :
    (dot_S256x64_S64x64_S256x64_1_0_0_1_n_n.lhsIdx i q 0).val = (i 0).val := by
  unfold DotDims.lhsIdx
  rw [dif_neg (show ¬(0 : Fin S256x64.rank) ∈ dot_S256x64_S64x64_S256x64_1_0_0_1_n_n.lhsBatch by decide), dif_pos (show (0 : Fin S256x64.rank) ∈ dot_S256x64_S64x64_S256x64_1_0_0_1_n_n.lhsNonContracting by decide)]
  rfl
theorem lhs64_1 (i : S256x64.Idx) (q : dot_S256x64_S64x64_S256x64_1_0_0_1_n_n.contr.Idx) :
    (dot_S256x64_S64x64_S256x64_1_0_0_1_n_n.lhsIdx i q 1).val = (q ⟨0, by decide⟩).val :=
  dot_S256x64_S64x64_S256x64_1_0_0_1_n_n.lhsIdx_val_of_single rfl i q
theorem rhs64_0 (i : S256x64.Idx) (q : dot_S256x64_S64x64_S256x64_1_0_0_1_n_n.contr.Idx) :
    (dot_S256x64_S64x64_S256x64_1_0_0_1_n_n.rhsIdx i q 0).val = (q ⟨0, by decide⟩).val :=
  dot_S256x64_S64x64_S256x64_1_0_0_1_n_n.rhsIdx_val_of_single rfl i q
theorem rhs64_1 (i : S256x64.Idx) (q : dot_S256x64_S64x64_S256x64_1_0_0_1_n_n.contr.Idx) :
    (dot_S256x64_S64x64_S256x64_1_0_0_1_n_n.rhsIdx i q 1).val = (i 1).val := by
  unfold DotDims.rhsIdx
  rw [dif_neg (show ¬(1 : Fin S64x64.rank) ∈ dot_S256x64_S64x64_S256x64_1_0_0_1_n_n.rhsBatch by decide), dif_pos (show (1 : Fin S64x64.rank) ∈ dot_S256x64_S64x64_S256x64_1_0_0_1_n_n.rhsNonContracting by decide)]
  rfl

/-- The [256, 64] · [64, 64] product into zero at `(n, h)`. -/
theorem matmul64_apply (L : FVec Ideal S256x64 .bf16) (R : FVec Ideal S64x64 .bf16) (n : Fin 256) (h : Fin 64) :
    matmul dot_S256x64_S64x64_S256x64_1_0_0_1_n_n none L R (constant (F := Ideal) S256x64 .f32 0x00000000#32) (ix2 n h)
      = ∑ k : Fin 64, L (ix2 n k) * R (ix2 k h) := by
  simp only [matmul]
  rw [Ideal.matmul_constant_zero_apply, ← Equiv.sum_comp (ValueIdx.contrEquiv1 dot_S256x64_S64x64_S256x64_1_0_0_1_n_n 64 rfl rfl).symm]
  refine Finset.sum_congr rfl fun k _ => ?_
  have hk := ValueIdx.contrEquiv1_symm_val dot_S256x64_S64x64_S256x64_1_0_0_1_n_n 64 rfl rfl k
  have el : dot_S256x64_S64x64_S256x64_1_0_0_1_n_n.lhsIdx (ix2 n h) ((ValueIdx.contrEquiv1 dot_S256x64_S64x64_S256x64_1_0_0_1_n_n 64 rfl rfl).symm k) = ix2 n k := funext fun a => Fin.ext (by
    match a with
    | ⟨0, _⟩ => exact lhs64_0 _ _
    | ⟨1, _⟩ => exact (lhs64_1 _ _).trans hk)
  have er : dot_S256x64_S64x64_S256x64_1_0_0_1_n_n.rhsIdx (ix2 n h) ((ValueIdx.contrEquiv1 dot_S256x64_S64x64_S256x64_1_0_0_1_n_n 64 rfl rfl).symm k) = ix2 k h := funext fun a => Fin.ext (by
    match a with
    | ⟨0, _⟩ => exact (rhs64_0 _ _).trans hk
    | ⟨1, _⟩ => exact rhs64_1 _ _)
  rw [el, er]

/-! ## One linear layer, as the body spells it -/

/-- The first layer: 16 input features. -/
theorem layer16_apply (L : FVec Ideal S256x16 .f32) (W : FVec Ideal S64x16 .f32) (bias : FVec Ideal S1x64 .f32)
    (n : Fin 256) (h : Fin 64) :
    maximumf (addf (matmul dot_S256x16_S16x64_S256x64_1_0_0_1_n_n none (truncf .bf16 L bitsLt_bf16_f32)
          (transpose S16x64 [1, 0] (truncf .bf16 W bitsLt_bf16_f32) transposes_S64x16_p1_0_S16x64)
          (constant (F := Ideal) S256x64 .f32 0x00000000#32))
        (broadcastTo S256x64 (shapeCast S1x64 bias shapeCasts_S1x64_S1x64) broadcasts_S1x64_S256x64))
      (broadcast S256x64 (Scalar.ofBits (F := Ideal) .f32 0x00000000#32)) (ix2 n h)
      = layer (fun n k => L (ix2 n k)) (fun h k => W (ix2 h k)) (fun h => bias (ix2 0 h)) n h := by
  rw [maximumf_apply, addf_apply, matmul16_apply, broadcast_apply, broadcastTo_1b_ab_apply, shapeCast_self]
  unfold layer
  refine congrArg₂ max (congrArg (· + _) (Finset.sum_congr rfl fun k _ => ?_)) Ideal.ofBits_zero_f32
  rw [truncf_apply, transpose_ix2_apply, truncf_apply]

/-- The second layer: 64 input features. -/
theorem layer64_apply (L : FVec Ideal S256x64 .f32) (W : FVec Ideal S64x64 .f32) (bias : FVec Ideal S1x64 .f32)
    (n : Fin 256) (h : Fin 64) :
    maximumf (addf (matmul dot_S256x64_S64x64_S256x64_1_0_0_1_n_n none (truncf .bf16 L bitsLt_bf16_f32)
          (transpose S64x64 [1, 0] (truncf .bf16 W bitsLt_bf16_f32) transposes_S64x64_p1_0_S64x64)
          (constant (F := Ideal) S256x64 .f32 0x00000000#32))
        (broadcastTo S256x64 (shapeCast S1x64 bias shapeCasts_S1x64_S1x64) broadcasts_S1x64_S256x64))
      (broadcast S256x64 (Scalar.ofBits (F := Ideal) .f32 0x00000000#32)) (ix2 n h)
      = layer (fun n k => L (ix2 n k)) (fun h k => W (ix2 h k)) (fun h => bias (ix2 0 h)) n h := by
  rw [maximumf_apply, addf_apply, matmul64_apply, broadcast_apply, broadcastTo_1b_ab_apply, shapeCast_self]
  unfold layer
  refine congrArg₂ max (congrArg (· + _) (Finset.sum_congr rfl fun k _ => ?_)) Ideal.ofBits_zero_f32
  rw [truncf_apply, transpose_ix2_apply, truncf_apply]

/-- The last linear map, without bias. -/
theorem proj_apply (L : FVec Ideal S256x64 .f32) (W : FVec Ideal S64x64 .f32) (n : Fin 256) (h : Fin 64) :
    matmul dot_S256x64_S64x64_S256x64_1_0_0_1_n_n none (truncf .bf16 L bitsLt_bf16_f32)
        (transpose S64x64 [1, 0] (truncf .bf16 W bitsLt_bf16_f32) transposes_S64x64_p1_0_S64x64)
        (constant (F := Ideal) S256x64 .f32 0x00000000#32) (ix2 n h)
      = proj (fun n k => L (ix2 n k)) (fun h k => W (ix2 h k)) n h := by
  rw [matmul64_apply]
  unfold proj
  refine Finset.sum_congr rfl fun k _ => ?_
  rw [truncf_apply, transpose_ix2_apply, truncf_apply]

/-! ## The two halves of the node axis -/

theorem lower_apply (y : FVec Ideal S256x64 .f32) (a : Fin 128) (h : Fin 64) :
    extractStridedSlice S128x64 ![0, 0] y slices_S256x64_o0_0_S128x64 (ix2 a h) = y (ix2 (lo a) h) :=
  slice2_axis0_apply 0 y slices_S256x64_o0_0_S128x64 a h (lo a) (Nat.zero_add _).symm

theorem upper_apply (y : FVec Ideal S256x64 .f32) (a : Fin 128) (h : Fin 64) :
    extractStridedSlice S128x64 ![128, 0] y slices_S256x64_o128_0_S128x64 (ix2 a h) = y (ix2 (hi a) h) :=
  slice2_axis0_apply 128 y slices_S256x64_o128_0_S128x64 a h (hi a) rfl

/-! ## A tile of the pair square -/

/-- A [128, 64] block put along the FIRST axis of the [128, 128, 64] tile: entry `(a, c, h)` is `y (a, h)`. -/
theorem along_first (y : FVec Ideal S128x64 .f32) (a c : Fin 128) (h : Fin 64) :
    broadcastTo S128x128x64 (shapeCast S128x1x64 y shapeCasts_S128x64_S128x1x64) broadcasts_S128x1x64_S128x128x64 (ix3 a c h)
      = y (ix2 a h) := by
  refine (broadcastTo_apply _ broadcasts_S128x1x64_S128x128x64 (ix3 a c h) (ix3 a (0 : Fin 1) h) fun ax => ?_).trans ?_
  · match ax with
    | ⟨0, _⟩ => show a.val = if (128 : Nat) = 1 then 0 else a.val; rw [if_neg (by decide)]
    | ⟨1, _⟩ => show 0 = if (1 : Nat) = 1 then 0 else c.val; rw [if_pos rfl]
    | ⟨2, _⟩ => show h.val = if (64 : Nat) = 1 then 0 else h.val; rw [if_neg (by decide)]
  · exact shapeCast_apply y shapeCasts_S128x64_S128x1x64 _ _ (by
      rw [Shape.rowMajor_val_three, Shape.rowMajor_val_two]
      show a.val * 64 + h.val = (a.val * 1 + 0) * 64 + h.val
      omega)

/-- A [128, 64] block put along the SECOND axis of the tile: entry `(a, c, h)` is `y (c, h)`. -/
theorem along_second (y : FVec Ideal S128x64 .f32) (a c : Fin 128) (h : Fin 64) :
    broadcastTo S128x128x64 (shapeCast S1x128x64 y shapeCasts_S128x64_S1x128x64) broadcasts_S1x128x64_S128x128x64 (ix3 a c h)
      = y (ix2 c h) := by
  refine (broadcastTo_apply _ broadcasts_S1x128x64_S128x128x64 (ix3 a c h) (ix3 (0 : Fin 1) c h) fun ax => ?_).trans ?_
  · match ax with
    | ⟨0, _⟩ => show 0 = if (1 : Nat) = 1 then 0 else a.val; rw [if_pos rfl]
    | ⟨1, _⟩ => show c.val = if (128 : Nat) = 1 then 0 else c.val; rw [if_neg (by decide)]
    | ⟨2, _⟩ => show h.val = if (64 : Nat) = 1 then 0 else h.val; rw [if_neg (by decide)]
  · exact shapeCast_ab_1ab_apply y shapeCasts_S128x64_S1x128x64 0 c h

/-- The bias row put at every pair of the tile: entry `(a, c, h)` is `be (0, h)`. -/
theorem bias_everywhere (be : FVec Ideal S1x64 .f32) (a c : Fin 128) (h : Fin 64) :
    broadcastTo S128x128x64 (shapeCast S1x1x64 be shapeCasts_S1x64_S1x1x64) broadcasts_S1x1x64_S128x128x64 (ix3 a c h)
      = be (ix2 0 h) := by
  refine (broadcastTo_apply _ broadcasts_S1x1x64_S128x128x64 (ix3 a c h) (ix3 (0 : Fin 1) (0 : Fin 1) h) fun ax => ?_).trans ?_
  · match ax with
    | ⟨0, _⟩ => show 0 = if (1 : Nat) = 1 then 0 else a.val; rw [if_pos rfl]
    | ⟨1, _⟩ => show 0 = if (1 : Nat) = 1 then 0 else c.val; rw [if_pos rfl]
    | ⟨2, _⟩ => show h.val = if (64 : Nat) = 1 then 0 else h.val; rw [if_neg (by decide)]
  · exact shapeCast_ab_1ab_apply be shapeCasts_S1x64_S1x1x64 0 0 h

/-- The sum over the tile's first axis, at `(c, h)`. -/
theorem sum_first (src : FVec Ideal S128x128x64 .f32) (c : Fin 128) (h : Fin 64) :
    multiReduction .add [0] S128x64 src 0x00000000#32 reduces_S128x128x64_S128x64 (.inl rfl) rfl (ix2 c h)
      = ∑ a : Fin 128, src (ix3 a c h) := by
  refine (Ideal.multiReduction_add_single src 0x00000000#32 reduces_S128x128x64_S128x64 (.inl rfl) rfl (ix2 c h)).trans ?_
  refine Finset.sum_congr rfl fun a _ => congrArg src (funext fun d => ?_)
  match d with
  | ⟨0, _⟩ => rfl
  | ⟨1, _⟩ => rfl
  | ⟨2, _⟩ => rfl

/-- The sum over the remaining node axis, at `h`. -/
theorem sum_second (src : FVec Ideal S128x64 .f32) (h : Fin 64) :
    multiReduction .add [0] S64 src 0x00000000#32 reduces_S128x64_S64 (.inl rfl) rfl (ix1 h)
      = ∑ c : Fin 128, src (ix2 c h) := by
  refine (Ideal.multiReduction_add_single src 0x00000000#32 reduces_S128x64_S64 (.inl rfl) rfl (ix1 h)).trans ?_
  refine Finset.sum_congr rfl fun c _ => congrArg src (funext fun d => ?_)
  match d with
  | ⟨0, _⟩ => rfl
  | ⟨1, _⟩ => rfl

/-- One tile: `tanh (P + Q + be)` summed over the tile's first axis and then over its second, as a row. -/
theorem tile_apply (P Q : FVec Ideal S128x128x64 .f32) (be : FVec Ideal S1x64 .f32) (h : Fin 64) :
    shapeCast S1x64 (multiReduction .add [0] S64 (multiReduction .add [0] S128x64
        (tanh (addf (addf P Q) (broadcastTo S128x128x64 (shapeCast S1x1x64 be shapeCasts_S1x64_S1x1x64) broadcasts_S1x1x64_S128x128x64)))
        0x00000000#32 reduces_S128x128x64_S128x64 (.inl rfl) rfl) 0x00000000#32 reduces_S128x64_S64 (.inl rfl) rfl)
      shapeCasts_S64_S1x64 (ix2 0 h)
      = ∑ c : Fin 128, ∑ a : Fin 128, Ideal.tanh (P (ix3 a c h) + Q (ix3 a c h) + be (ix2 0 h)) := by
  rw [shapeCast_a_1a_apply, sum_second]
  refine Finset.sum_congr rfl fun c _ => ?_
  rw [sum_first]
  refine Finset.sum_congr rfl fun a _ => ?_
  show Ideal.tanh (P (ix3 a c h) + Q (ix3 a c h) + _) = _
  rw [bias_everywhere]

end Cert.KernelIdeal.Body

end
-- ==== Proof.KernelBody.lean ====
/-
  What the kernel body stores, at output feature `h`, is the mean-pooled pair function of the blocks
  it loads.

  The body computes the node features `y` (two linear layers with bias and maximum with zero, then
  a third linear map) of the one batch element its block of node features holds; cuts the node axis
  into its lower and upper half; for each of the four pairs of halves builds the 128 × 128 tile of
  `tanh (y_i + y_j + be)`, sums it over its first and then its second node axis, and adds the four
  row sums onto zero; and multiplies by 2^-16. The four tiles are exactly the pair square.
-/
import proofs.«158227_j61486751809982_1_alg».proof.Proof.Gen.KernelIdeal.Skeleton
import proofs.«158227_j61486751809982_1_alg».proof.Proof.KernelOps

noncomputable section

namespace Cert.KernelIdeal.Body

open Cert.KernelIdeal Cert.KernelIdeal.Gen Cert.PairPool
open Idealize.ShloMosaic Idealize.ShloMosaic.ValueIdx

/-- The node features of the one batch element a [1, 256, 16] block holds. -/
abbrev nodes (v : FVec Ideal S1x256x16 .f32) : Fin 256 → Fin 16 → EReal := fun n k => v (ix3 0 n k)
/-- A weight matrix as a function of output feature and input feature. -/
abbrev mat {K : Nat} (w : FVec Ideal ⟨2, ![64, K]⟩ .f32) : Fin 64 → Fin K → EReal := fun h k => w (ix2 h k)
/-- A [1, 64] row as a function of the feature. -/
abbrev row (v : FVec Ideal S1x64 .f32) : Fin 64 → EReal := fun h => v (ix2 0 h)

section NodeFeatures
variable (v0 : FVec Ideal S1x256x16 .f32) (v3 : FVec Ideal S64x16 .f32) (v7 : FVec Ideal S1x64 .f32)
  (v13 : FVec Ideal S64x64 .f32) (v18 : FVec Ideal S1x64 .f32) (v24 : FVec Ideal S64x64 .f32)

/-- The node features `y (n, h)`. -/
theorem nodeY_apply (n : Fin 256) (h : Fin 64) :
    k0_pay2 (F := Ideal) v0 v3 v7 v13 v18 v24 (ix2 n h)
      = nodeY (nodes v0) (mat v3) (row v7) (mat v13) (row v18) (mat v24) n h := by
  unfold k0_pay2
  dsimp only
  rw [proj_apply]
  unfold nodeY
  refine congrArg (fun X => proj X (mat v24) n h) (funext fun n' => funext fun k' => ?_)
  rw [layer64_apply]
  refine congrArg (fun X => layer X (mat v13) (row v18) n' k') (funext fun n'' => funext fun k'' => ?_)
  rw [layer16_apply]
  refine congrArg (fun X => layer X (mat v3) (row v7) n'' k'') (funext fun a => funext fun b => ?_)
  exact shapeCast_1ab_ab_apply v0 shapeCasts_S1x256x16_S256x16 a b

/-- The lower half of the node features. -/
theorem lowerY_apply (a : Fin 128) (h : Fin 64) :
    k0_pay5 (F := Ideal) v0 v3 v7 v13 v18 v24 (ix2 a h) = k0_pay2 (F := Ideal) v0 v3 v7 v13 v18 v24 (ix2 (lo a) h) := by
  unfold k0_pay5
  exact lower_apply _ a h

/-- The lower half along the first axis of a tile. -/
theorem lowerFirst_apply (a c : Fin 128) (h : Fin 64) :
    k0_pay6 (F := Ideal) v0 v3 v7 v13 v18 v24 (ix3 a c h) = k0_pay2 (F := Ideal) v0 v3 v7 v13 v18 v24 (ix2 (lo a) h) := by
  unfold k0_pay6
  rw [along_first, lowerY_apply]

/-- The lower half along the second axis of a tile. -/
theorem lowerSecond_apply (a c : Fin 128) (h : Fin 64) :
    k0_pay7 (F := Ideal) v0 v3 v7 v13 v18 v24 (ix3 a c h) = k0_pay2 (F := Ideal) v0 v3 v7 v13 v18 v24 (ix2 (lo c) h) := by
  unfold k0_pay7
  rw [along_second, lower_apply]

end NodeFeatures

/-- The bias row as loaded. -/
theorem biasRow_eq (v29 : FVec Ideal S1x64 .f32) : k0_pay3 (F := Ideal) v29 = v29 := by
  unfold k0_pay3
  exact shapeCast_self v29 shapeCasts_S1x64_S1x64

/-- The accumulator starts at zero. -/
theorem zeroRow_apply (h : Fin 64) : k0_pay4 (F := Ideal) (ix2 0 h) = 0 := by
  unfold k0_pay4
  exact Ideal.ofBits_zero_f32

/-- The four tiles added onto the starting row, at feature `h`. -/
theorem tiles_apply (v28 : FVec Ideal S256x64 .f32) (v30 v31 : FVec Ideal S1x64 .f32) (v32 : FVec Ideal S128x64 .f32)
    (v36 v37 : FVec Ideal S128x128x64 .f32) (h : Fin 64) :
    k0_pay8 (F := Ideal) v28 v30 v31 v32 v36 v37 (ix2 0 h)
      = (((v31 (ix2 0 h)
          + ∑ c : Fin 128, ∑ a : Fin 128, Ideal.tanh (v36 (ix3 a c h) + v37 (ix3 a c h) + v30 (ix2 0 h)))
          + ∑ c : Fin 128, ∑ a : Fin 128, Ideal.tanh (v32 (ix2 a h) + v28 (ix2 (hi c) h) + v30 (ix2 0 h)))
          + ∑ c : Fin 128, ∑ a : Fin 128, Ideal.tanh (v28 (ix2 (hi a) h) + v28 (ix2 (lo c) h) + v30 (ix2 0 h)))
          + ∑ c : Fin 128, ∑ a : Fin 128, Ideal.tanh (v28 (ix2 (hi a) h) + v28 (ix2 (hi c) h) + v30 (ix2 0 h)) := by
  unfold k0_pay8
  dsimp only
  rw [addf_apply, addf_apply, addf_apply, addf_apply, tile_apply, tile_apply, tile_apply, tile_apply]
  simp only [along_first, along_second, lower_apply, upper_apply]

/-- The last step: times 2^-16, stored as a [1, 1, 64] block. -/
theorem scaled_apply (v89 : FVec Ideal S1x64 .f32) (h : Fin 64) :
    k0_pay1 (F := Ideal) v89 (ix3 0 0 h) = v89 (ix2 0 h) * Ideal.ofBits .f32 0x37800000#32 := by
  unfold k0_pay1
  rw [shapeCast_ab_1ab_apply]
  rfl

/-- WHAT THE BODY STORES at feature `h`: the mean over all ordered pairs of nodes. -/
theorem stored_apply (x0 : FVec Ideal S1x256x16 .f32) (x1 : FVec Ideal S64x16 .f32) (x2 : FVec Ideal S1x64 .f32)
    (x3 : FVec Ideal S64x64 .f32) (x4 : FVec Ideal S1x64 .f32) (x5 : FVec Ideal S64x64 .f32) (x6 : FVec Ideal S1x64 .f32)
    (h : Fin 64) :
    k0_pay1 (F := Ideal) (k0_pay8 (k0_pay2 x0 x1 x2 x3 x4 x5) (k0_pay3 x6) (k0_pay4 (F := Ideal))
        (k0_pay5 x0 x1 x2 x3 x4 x5) (k0_pay6 x0 x1 x2 x3 x4 x5) (k0_pay7 x0 x1 x2 x3 x4 x5)) (ix3 0 0 h)
      = meanPool (nodes x0) (mat x1) (row x2) (mat x3) (row x4) (mat x5) (row x6) h := by
  rw [scaled_apply, tiles_apply, biasRow_eq, zeroRow_apply]
  simp only [lowerY_apply, lowerFirst_apply, lowerSecond_apply, nodeY_apply]
  unfold meanPool pairSum
  rw [sum_pairs_tiles, ofBits_inv65536]

end Cert.KernelIdeal.Body

end
-- ==== Proof.KernelValue.lean ====
/-
  The array the region leaves, and the kernel program's result.

  The grid has one point per batch element. At point `t` the node-feature window holds rows
  `(t, ·, ·)` of the node features, the three weight windows hold their whole matrices, the three
  bias windows hold the bias vectors viewed as rows (the host reshapes before the region), and the
  body leaves in the output window the mean pool of that batch element, which is written back as
  row `(t, 0, ·)` of the [64, 1, 64] result. The 64 points cover the result, so it ends holding the
  mean pool of every batch element; the host reshape after the region views it as [64, 64].
-/
import proofs.«158227_j61486751809982_1_alg».proof.Proof.Gen.KernelIdeal.Frame
import proofs.«158227_j61486751809982_1_alg».proof.Proof.KernelBody
import Idealize.ShloMosaic.Lib.Pipeline.Value
import Idealize.ShloMosaic.Lib.StableHlo.Run
import Idealize.ShloMosaic.Lib.ValueLayout
import Idealize.ShloMosaic.Lib.Tactic

set_option maxRecDepth 16384

noncomputable section

namespace Cert.KernelIdeal.Pooled

open Cert.KernelIdeal Cert.KernelIdeal.Gen Cert.KernelIdeal.Body Cert.PairPool
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

theorem hz3 : (![0, 0, 0] : Fin 3 → Nat) = fun _ => 0 := funext fun a => by fin_cases a <;> rfl
theorem hz2 : (![0, 0] : Fin 2 → Nat) = fun _ => 0 := funext fun a => by fin_cases a <;> rfl

/-! ## What the body leaves in the output window -/

/-- The output window's buffer after the body, entry by entry: the mean pool of the loaded blocks. -/
theorem out_apply (x0 : FVec Ideal S1x256x16 .f32) (x1 : FVec Ideal S64x16 .f32) (x2 : FVec Ideal S1x64 .f32)
    (x3 : FVec Ideal S64x64 .f32) (x4 : FVec Ideal S1x64 .f32) (x5 : FVec Ideal S64x64 .f32) (x6 : FVec Ideal S1x64 .f32)
    (j : S1x1x64.Idx) :
    out0_7 (F := Ideal) x0 x1 x2 x3 x4 x5 x6 j
      = meanPool (nodes x0) (mat x1) (row x2) (mat x3) (row x4) (mat x5) (row x6) (j 2) := by
  unfold out0_7
  rw [View.canon_unit_zero hz3]
  simp only [View.ld_unit_zero (S := S1x256x16) hz3, View.ld_unit_zero (S := S64x16) hz2,
    View.ld_unit_zero (S := S1x64) hz2, View.ld_unit_zero (S := S64x64) hz2]
  obtain ⟨u, v, h, rfl⟩ : ∃ (u v : Fin 1) (h : Fin 64), j = ix3 u v h := ⟨j 0, j 1, j 2, eq_ix3 j⟩
  obtain rfl : u = 0 := Subsingleton.elim _ _
  obtain rfl : v = 0 := Subsingleton.elim _ _
  exact stored_apply x0 x1 x2 x3 x4 x5 x6 h

/-! ## The windows' blocks -/

/-- The printed index maps, decided over the grid: the node features and the result move with the point along
    their first axis; every other window stays at its one block. -/
theorem idx_facts : ∀ t : Fin cfg0.N,
    win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 3) = t.val ∧ win0_7.index t (1 : Fin 3) = 0 ∧ win0_7.index t (2 : Fin 3) = 0 :=
  (by decide +kernel : ∀ t : Fin grid0.N, _)

/-- The node-feature block at point `t` is batch element `t` of the node features. -/
theorem nodes_block (c : Dev nD) (t : Fin cfg0.N) (b : Fin 64) (hb : b.val = t.val) (n : Fin 256) (k : Fin 16) :
    (iblk m c 0 t : FVec Ideal S1x256x16 .f32) (ix3 0 n k)
      = (m ((c : Thread nD τ).loc main_arg0) : S64x256x16.Idx → EReal) (ix3 b n k) := by
  obtain ⟨e0, e1, e2, -⟩ := idx_facts t
  unfold iblk
  rw [View.read_apply]
  refine (congrFun (V_main_arg0 m c) _).trans (congrArg (m ((c : Thread nD τ).loc main_arg0)) (funext fun a => Fin.ext ?_))
  match a with
  | ⟨0, _⟩ => show win0_0.index t (0 : Fin 3) * 1 + 1 * 0 = b.val; rw [e0, hb]; omega
  | ⟨1, _⟩ => show win0_0.index t (1 : Fin 3) * 256 + 1 * n.val = n.val; rw [e1]; omega
  | ⟨2, _⟩ => show win0_0.index t (2 : Fin 3) * 16 + 1 * k.val = k.val; rw [e2]; omega

/-- The first weight window holds the whole [64, 16] matrix. -/
theorem weights0_block (c : Dev nD) (t : Fin cfg0.N) (h : Fin 64) (k : Fin 16) :
    (iblk m c 1 t : FVec Ideal S64x16 .f32) (ix2 h k)
      = (m ((c : Thread nD τ).loc main_arg1) : S64x16.Idx → EReal) (ix2 h k) := by
  obtain ⟨-, -, -, e0, e1, -⟩ := idx_facts t
  unfold iblk
  rw [View.read_apply]
  refine (congrFun (V_main_arg1 m c) _).trans (congrArg (m ((c : Thread nD τ).loc main_arg1)) (funext fun a => Fin.ext ?_))
  match a with
  | ⟨0, _⟩ => show win0_1.index t (0 : Fin 2) * 64 + 1 * h.val = h.val; rw [e0]; omega
  | ⟨1, _⟩ => show win0_1.index t (1 : Fin 2) * 16 + 1 * k.val = k.val; rw [e1]; omega

/-- The second weight window holds the whole [64, 64] matrix. -/
theorem weights1_block (c : Dev nD) (t : Fin cfg0.N) (h : Fin 64) (k : Fin 64) :
    (iblk m c 3 t : FVec Ideal S64x64 .f32) (ix2 h k)
      = (m ((c : Thread nD τ).loc main_arg3) : S64x64.Idx → EReal) (ix2 h k) := by
  obtain ⟨-, -, -, -, -, -, -, e0, e1, -⟩ := idx_facts t
  unfold iblk
  rw [View.read_apply]
  refine (congrFun (V_main_arg3 m c) _).trans (congrArg (m ((c : Thread nD τ).loc main_arg3)) (funext fun a => Fin.ext ?_))
  match a with
  | ⟨0, _⟩ => show win0_3.index t (0 : Fin 2) * 64 + 1 * h.val = h.val; rw [e0]; omega
  | ⟨1, _⟩ => show win0_3.index t (1 : Fin 2) * 64 + 1 * k.val = k.val; rw [e1]; omega

/-- The third weight window holds the whole [64, 64] matrix. -/
theorem weights2_block (c : Dev nD) (t : Fin cfg0.N) (h : Fin 64) (k : Fin 64) :
    (iblk m c 5 t : FVec Ideal S64x64 .f32) (ix2 h k)
      = (m ((c : Thread nD τ).loc main_arg5) : S64x64.Idx → EReal) (ix2 h k) := by
  obtain ⟨-, -, -, -, -, -, -, -, -, -, -, e0, e1, -⟩ := idx_facts t
  unfold iblk
  rw [View.read_apply]
  refine (congrFun (V_main_arg5 m c) _).trans (congrArg (m ((c : Thread nD τ).loc main_arg5)) (funext fun a => Fin.ext ?_))
  match a with
  | ⟨0, _⟩ => show win0_5.index t (0 : Fin 2) * 64 + 1 * h.val = h.val; rw [e0]; omega
  | ⟨1, _⟩ => show win0_5.index t (1 : Fin 2) * 64 + 1 * k.val = k.val; rw [e1]; omega

/-! ## The bias vectors, reshaped to rows before the region -/

/-- The first bias as a row: what the host reshape wrote. -/
theorem bias0_row (c : Dev nD) :
    (V m c main_v0 : S1x64.Idx → EReal) = shapeCast S1x64 (m ((c : Thread nD τ).loc main_arg2)) shapeCasts_S64_S1x64 := by
  show StableHlo.after hostOps0 (fun b => m (c, b)) (Proc.devRef .tc main_v0) = _
  after_results
  rfl

/-- The second bias as a row. -/
theorem bias1_row (c : Dev nD) :
    (V m c main_v1 : S1x64.Idx → EReal) = shapeCast S1x64 (m ((c : Thread nD τ).loc main_arg4)) shapeCasts_S64_S1x64 := by
  show StableHlo.after hostOps0 (fun b => m (c, b)) (Proc.devRef .tc main_v1) = _
  after_results
  rfl

/-- The pair bias as a row. -/
theorem bias2_row (c : Dev nD) :
    (V m c main_v2 : S1x64.Idx → EReal) = shapeCast S1x64 (m ((c : Thread nD τ).loc main_arg6)) shapeCasts_S64_S1x64 := by
  show StableHlo.after hostOps0 (fun b => m (c, b)) (Proc.devRef .tc main_v2) = _
  after_results
  rfl

/-- The first bias window holds the first bias vector as a row. -/
theorem bias0_block (c : Dev nD) (t : Fin cfg0.N) (h : Fin 64) :
    (iblk m c 2 t : FVec Ideal S1x64 .f32) (ix2 0 h) = (m ((c : Thread nD τ).loc main_arg2) : S64.Idx → EReal) (ix1 h) := by
  obtain ⟨-, -, -, -, -, e0, e1, -⟩ := idx_facts t
  unfold iblk
  rw [View.read_apply]
  refine Eq.trans (b := (V m c main_v0 : S1x64.Idx → EReal) (ix2 0 h)) (congrArg (V m c main_v0) (funext fun a => Fin.ext ?_)) ?_
  · match a with
    | ⟨0, _⟩ => show win0_2.index t (0 : Fin 2) * 1 + 1 * 0 = 0; rw [e0]
    | ⟨1, _⟩ => show win0_2.index t (1 : Fin 2) * 64 + 1 * h.val = h.val; rw [e1]; omega
  · rw [bias0_row]
    exact shapeCast_a_1a_apply _ shapeCasts_S64_S1x64 0 h

/-- The second bias window holds the second bias vector as a row. -/
theorem bias1_block (c : Dev nD) (t : Fin cfg0.N) (h : Fin 64) :
    (iblk m c 4 t : FVec Ideal S1x64 .f32) (ix2 0 h) = (m ((c : Thread nD τ).loc main_arg4) : S64.Idx → EReal) (ix1 h) := by
  obtain ⟨-, -, -, -, -, -, -, -, -, e0, e1, -⟩ := idx_facts t
  unfold iblk
  rw [View.read_apply]
  refine Eq.trans (b := (V m c main_v1 : S1x64.Idx → EReal) (ix2 0 h)) (congrArg (V m c main_v1) (funext fun a => Fin.ext ?_)) ?_
  · match a with
    | ⟨0, _⟩ => show win0_4.index t (0 : Fin 2) * 1 + 1 * 0 = 0; rw [e0]
    | ⟨1, _⟩ => show win0_4.index t (1 : Fin 2) * 64 + 1 * h.val = h.val; rw [e1]; omega
  · rw [bias1_row]
    exact shapeCast_a_1a_apply _ shapeCasts_S64_S1x64 0 h

/-- The pair-bias window holds the pair bias as a row. -/
theorem bias2_block (c : Dev nD) (t : Fin cfg0.N) (h : Fin 64) :
    (iblk m c 6 t : FVec Ideal S1x64 .f32) (ix2 0 h) = (m ((c : Thread nD τ).loc main_arg6) : S64.Idx → EReal) (ix1 h) := by
  obtain ⟨-, -, -, -, -, -, -, -, -, -, -, -, -, e0, e1, -⟩ := idx_facts t
  unfold iblk
  rw [View.read_apply]
  refine Eq.trans (b := (V m c main_v2 : S1x64.Idx → EReal) (ix2 0 h)) (congrArg (V m c main_v2) (funext fun a => Fin.ext ?_)) ?_
  · match a with
    | ⟨0, _⟩ => show win0_6.index t (0 : Fin 2) * 1 + 1 * 0 = 0; rw [e0]
    | ⟨1, _⟩ => show win0_6.index t (1 : Fin 2) * 64 + 1 * h.val = h.val; rw [e1]; omega
  · rw [bias2_row]
    exact shapeCast_a_1a_apply _ shapeCasts_S64_S1x64 0 h

/-! ## The result array -/

/-- The [64, 1, 64] array the region writes: row `(b, 0, ·)` is the mean pool of batch element `b`. -/
def pooled (c : Dev nD) : S64x1x64.Idx → EReal := fun i =>
  G (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (ix2 (i 0) (i 2))

/-- WHAT POINT `t` WRITES BACK is block `t` of `pooled`. -/
theorem flushed_eq (c : Dev nD) (t : Fin cfg0.N) :
    (dats m 0 c).flushed 7 t = ((cfg0.win 7).blk t).view.read (Elt Ideal) (pooled m c) := by
  obtain ⟨-, -, -, -, -, -, -, -, -, -, -, -, -, -, -, e0, e1, e2⟩ := idx_facts t
  show (cfg0.win 7).cut (grid0.coords t) ((dats m 0 c).after 7 t) = _
  rw [after0_7]
  funext j
  have hj0 : (j 0).val < 1 := (j 0).isLt
  have hE0 : ((((cfg0.win 7).blk t).view.emb j) 0).val = t.val := by
    show win0_7.index t (0 : Fin 3) * 1 + 1 * (j 0).val = t.val
    rw [e0]; omega
  have hE2 : (((cfg0.win 7).blk t).view.emb j) 2 = j 2 := Fin.ext (by
    show win0_7.index t (2 : Fin 3) * 64 + 1 * (j 2).val = (j 2).val
    rw [e2]; omega)
  show out0_7 (iblk m c 0 t) (iblk m c 1 t) (iblk m c 2 t) (iblk m c 3 t) (iblk m c 4 t) (iblk m c 5 t) (iblk m c 6 t) j
    = pooled m c (((cfg0.win 7).blk t).view.emb j)
  refine (out_apply (iblk m c 0 t) (iblk m c 1 t) (iblk m c 2 t) (iblk m c 3 t) (iblk m c 4 t) (iblk m c 5 t) (iblk m c 6 t) j).trans ?_
  unfold pooled G
  exact meanPool_congr
    (funext fun n => funext fun k => nodes_block m c t _ hE0 n k)
    (funext fun h => funext fun k => weights0_block m c t h k)
    (funext fun h => bias0_block m c t h)
    (funext fun h => funext fun k => weights1_block m c t h k)
    (funext fun h => bias1_block m c t h)
    (funext fun h => funext fun k => weights2_block m c t h k)
    (funext fun h => bias2_block m c t h)
    hE2.symm

/-- An index of the result is in point `t`'s block iff each coordinate is in the block's range on its axis. -/
theorem mem_blk (t : Fin cfg0.N) (i : S64x1x64.Idx) :
    i ∈ ((cfg0.win 7).blk t).view.set ↔ ∀ a : Fin 3, win0_7.index t a * S1x1x64.size a ≤ (i a).val ∧ (i a).val < win0_7.index t a * S1x1x64.size a + S1x1x64.size a := by
  show i ∈ ((View.whole main_v3).slice (win0_7.rect t)).set ↔ _
  rw [View.set_slice_whole, Rect.mem_set_unit]
  exact Iff.rfl

/-- Row `b` of the result is written back by point `b`: the 64 points cover it. -/
theorem cover (i : S64x1x64.Idx) :
    ∃ t : Fin cfg0.N, (cfg0.win 7).flush t = true ∧ i ∈ ((cfg0.win 7).blk t).view.set := by
  have hN : cfg0.N = 64 := N_0
  have hi0 : (i 0).val < 64 := (i 0).isLt
  have hi1 : (i 1).val < 1 := (i 1).isLt
  have hi2 : (i 2).val < 64 := (i 2).isLt
  have hlt : (i 0).val < cfg0.N := by omega
  obtain ⟨-, -, -, -, -, -, -, -, -, -, -, -, -, -, -, e0, e1, e2⟩ := idx_facts ⟨(i 0).val, hlt⟩
  have e0' : win0_7.index ⟨(i 0).val, hlt⟩ (0 : Fin 3) = (i 0).val := e0
  refine ⟨⟨(i 0).val, hlt⟩, flush0_7 _, ?_⟩
  rw [mem_blk]
  intro a
  match a with
  | ⟨0, _⟩ =>
    show win0_7.index ⟨(i 0).val, hlt⟩ (0 : Fin 3) * 1 ≤ (i 0).val ∧ (i 0).val < win0_7.index ⟨(i 0).val, hlt⟩ (0 : Fin 3) * 1 + 1
    rw [e0']; omega
  | ⟨1, _⟩ =>
    show win0_7.index ⟨(i 0).val, hlt⟩ (1 : Fin 3) * 1 ≤ (i 1).val ∧ (i 1).val < win0_7.index ⟨(i 0).val, hlt⟩ (1 : Fin 3) * 1 + 1
    rw [e1]; omega
  | ⟨2, _⟩ =>
    show win0_7.index ⟨(i 0).val, hlt⟩ (2 : Fin 3) * 64 ≤ (i 2).val ∧ (i 2).val < win0_7.index ⟨(i 0).val, hlt⟩ (2 : Fin 3) * 64 + 64
    rw [e2]; omega

/-- THE ARRAY after the region: `pooled`. -/
theorem final (c : Dev nD) : (dats m 0 c).arrAt 7 cfg0.N = pooled m c :=
  (dats m 0 c).arrAt_eq_of_cover 7 (pooled m c) (fun t _ => flushed_eq m c t) cover

/-! ## The host reshape after the region, and the run -/

/-- The program's result: the region's array viewed as [64, 64] is `G` of the arguments. -/
theorem tail_eq (c : Dev nD) :
    Pipeline.afterTail₀ cfgs (dats m) 0 (V0 m) [hostOps1] c main_v4
      = G (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) := by
  unfold Pipeline.afterTail₀
  show StableHlo.after hostOps1 _ (Proc.devRef .tc main_v4) = _
  after_results
  funext i
  obtain ⟨b, h, rfl⟩ : ∃ (b : Fin 64) (h : Fin 64), i = ix2 b h := ⟨i 0, i 1, eq_ix2 i⟩
  have hw : Pipeline.withArrays spec0 c (V0 m c) (fun w => (dats m 0 c).arrAt w cfg0.N) (Proc.devRef .tc main_v3) = pooled m c :=
    (Pipeline.withArrays_arr spec0 launch0.win.arr_inj c _ _ 7).trans (final m c)
  show shapeCast S64x64 (Pipeline.withArrays spec0 c (V0 m c) (fun w => (dats m 0 c).arrAt w cfg0.N) (Proc.devRef .tc main_v3))
    shapeCasts_S64x1x64_S64x64 (ix2 b h) = _
  rw [hw]
  refine (shapeCast_apply (pooled m c) shapeCasts_S64x1x64_S64x64 (ix2 b h) (ix3 b 0 h) ?_).trans rfl
  rw [Shape.rowMajor_val_three, Shape.rowMajor_val_two]
  show (b.val * 1 + 0) * 64 + h.val = b.val * 64 + h.val
  omega

/-- THE RUN, READ: every weakly fair execution of the kernel program ends with its result at `G` of the
    arguments and the arguments unchanged (the generated frame run, its post read at the result and at each
    argument). -/
theorem run : θ_run defs (onTc (τ := τ) (main (F := Ideal))) ⟨m, fun _ => 0, ρ⟩ fun r => ∀ c : Dev nD,
      r.2.mem ((c : Thread nD τ).loc main_v4)
        = G (m ((c : Thread nD τ).loc main_arg0)) (m ((c : Thread nD τ).loc main_arg1)) (m ((c : Thread nD τ).loc main_arg2))
            (m ((c : Thread nD τ).loc main_arg3)) (m ((c : Thread nD τ).loc main_arg4)) (m ((c : Thread nD τ).loc main_arg5))
            (m ((c : Thread nD τ).loc main_arg6))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun _ h c =>
    ⟨((h c).2 main_v4 (Pipeline.mem_restRefs_of main_v4 (by decide) (by decide))).trans (tail_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c),
      ((h c).1 3).trans (((dats m 0 c).arrAt_in 3 rfl _).trans ((A_eq m c 3).trans (V_main_arg3 m c))),
      ((h c).2 main_arg4 (Pipeline.mem_restRefs_of main_arg4 (by decide) (by decide))).trans (W_main_arg4 m (dats m) c),
      ((h c).1 5).trans (((dats m 0 c).arrAt_in 5 rfl _).trans ((A_eq m c 5).trans (V_main_arg5 m c))),
      ((h c).2 main_arg6 (Pipeline.mem_restRefs_of main_arg6 (by decide) (by decide))).trans (W_main_arg6 m (dats m) c)⟩)
    (run_main m ρ)

end Cert.KernelIdeal.Pooled

end
-- ==== Proof.lean ====
/- The proof of `Cert.Claim`: the kernel and its reference compute the same mean-pooled pair function.

   For each of 64 batch elements, 256 nodes carry 16 features. Two linear layers (weights indexed output
   feature first, a bias, the maximum with zero) and a third linear map give node features `y n h`, 64 per
   node; the result at feature `h` is the mean over all 256 · 256 ordered pairs `(n1, n2)` of
   `tanh (y n1 h + y n2 h + be h)` (`Cert.PairPool.G`, Proof/Spec.lean).

   The reference forms the [64, 256, 256, 64] array of all pairs, sums its two middle axes and divides by
   65536 (Proof/RefValue.lean, over the generated reading of its operations). The kernel takes one batch
   element per grid point, rounds its matrix operands to bf16 (the identity on the extended reals), cuts the
   node axis into halves, sums the four 128 × 128 tiles of the pair square one after the other and multiplies
   by 2^-16 (Proof/KernelOps.lean, Proof/KernelBody.lean); the 64 rows it writes back cover the result, and a
   host reshape views it as [64, 64] (Proof/KernelValue.lean, over the generated frame run).

   The two agree because a sum over all pairs is the sum of its four tiles in any order and grouping
   (addition of extended reals is commutative and associative), and because dividing by 65536 is
   multiplying by 1/65536 = 2^-16 on every extended real. No finiteness of the inputs is used for the values.
   The three frames are the generated ones; nothing was rewritten between the kernel and its idealization. -/
import proofs.«158227_j61486751809982_1_alg».proof.Defs
import proofs.«158227_j61486751809982_1_alg».proof.Proof.Gen.Kernel
import proofs.«158227_j61486751809982_1_alg».proof.Proof.Gen.Kernel.Skeleton
import proofs.«158227_j61486751809982_1_alg».proof.Proof.Gen.Kernel.Launch
import proofs.«158227_j61486751809982_1_alg».proof.Proof.Gen.Kernel.Points
import proofs.«158227_j61486751809982_1_alg».proof.Proof.Gen.Kernel.Frame
import proofs.«158227_j61486751809982_1_alg».proof.Proof.Gen.KernelIdeal
import proofs.«158227_j61486751809982_1_alg».proof.Proof.Gen.KernelIdeal.Skeleton
import proofs.«158227_j61486751809982_1_alg».proof.Proof.Gen.KernelIdeal.Launch
import proofs.«158227_j61486751809982_1_alg».proof.Proof.Gen.KernelIdeal.Points
import proofs.«158227_j61486751809982_1_alg».proof.Proof.Gen.KernelIdeal.Frame
import proofs.«158227_j61486751809982_1_alg».proof.Proof.Gen.ReferenceIdeal
import proofs.«158227_j61486751809982_1_alg».proof.Proof.Gen.Pre_finite_inputs
import proofs.«158227_j61486751809982_1_alg».proof.Proof.Gen.ReferenceIdeal.Run
import proofs.«158227_j61486751809982_1_alg».proof.Proof.Gen.ReferenceIdeal.Read
import proofs.«158227_j61486751809982_1_alg».proof.Proof.RefValue
import proofs.«158227_j61486751809982_1_alg».proof.Proof.KernelValue
import Idealize.ShloMosaic.Adequacy
import Idealize.ShloMosaic.Init

noncomputable section

namespace Cert.Proof

open Idealize.ShloMosaic Idealize.SL.Sem

/-- The kernel as printed runs and keeps its arguments. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs and keeps its arguments: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Both programs end with the mean-pooled pair function `G` of their (equal) arguments. -/
theorem algebraic : Cert.algebraic_KernelIdeal_ReferenceIdeal := by
  intro m ρ m' ρ' _ hagree
  refine ⟨_, Cert.KernelIdeal.Pooled.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6⟩ := hagree c
  rw [h0, h1, h2, h3, h4, h5, h6]
  exact (Cert.ReferenceIdeal.Read.val_main_v22_eq _ _ _ _ _ _ _).trans
    (Cert.ReferenceIdeal.RefValue.result_eq _ _ _ _ _ _ _)

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
